-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512 : Shape := ⟨1, ![512]⟩
abbrev S50000x128 : Shape := ⟨2, ![50000, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512 : S_.BroadcastsInDim S512 (![] : Fin 0 → Fin S512.rank)
  reducesTo_S512_S_d0 : S512.ReducesTo [0] S_
  bcast_S_S50000x128 : S_.BroadcastsInDim S50000x128 (![] : Fin 0 → Fin S50000x128.rank)
  reducesTo_S50000x128_S_d0_1 : S50000x128.ReducesTo [0, 1] S_

variable [Facts]

def fn {F : FTy → Type} [FloatOps F] (main_arg0 : FVec F S50000x512 .f32) (main_arg1 : FVec F S512 .f32) (main_arg2 : FVec F S50000x128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  main_v13
-- ==== Kernel.lean ====
abbrev S50000x512 : Shape := ⟨2, ![50000, 512]⟩
abbrev S512 : Shape := ⟨1, ![512]⟩
abbrev S50000x128 : Shape := ⟨2, ![50000, 128]⟩
abbrev S512x1 : Shape := ⟨2, ![512, 1]⟩
abbrev S512x128 : Shape := ⟨2, ![512, 128]⟩
abbrev S2000x512 : Shape := ⟨2, ![2000, 512]⟩
abbrev S2000x128 : Shape := ⟨2, ![2000, 128]⟩

abbrev nBuf : Space → Nat
  | .hbm => 6
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S512, .f32⟩
  | .hbm, ⟨2, _⟩ => ⟨S50000x128, .f32⟩
  | .hbm, ⟨3, _⟩ => ⟨S512x1, .f32⟩
  | .hbm, ⟨4, _⟩ => ⟨S512x128, .f32⟩
  | .hbm, ⟨5, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S2000x128, .f32⟩
  | .local _ .vmem, ⟨3, _⟩ => ⟨S2000x128, .f32⟩
  | .local _ .vmem, ⟨4, _⟩ => ⟨S512x1, .f32⟩
  | .local _ .vmem, ⟨5, _⟩ => ⟨S512x128, .f32⟩
  | .local _ .vmem, ⟨6, _⟩ => ⟨S512x128, .f32⟩
  | .local _ .vmem, ⟨7, _⟩ => ⟨S2000x512, .f32⟩
  | .local _ .vmem, ⟨8, _⟩ => ⟨S2000x512, .f32⟩
  | .local _ .vmem, ⟨9, _⟩ => ⟨S512x128, .f32⟩
  | .local _ .vmem, ⟨10, _⟩ => ⟨S2000x128, .f32⟩
  | .local _ .vmem, ⟨11, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v11 : BitVec 1 := Scalar.cmpi .eq arg0 c24_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S512_S512x1 : S512.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x512_S2000x512_0_0 : ∀ a, (![0, 0] : Fin 2 → Nat) a + S2000x512.size a ≤ S2000x512.size a
  h_S2000x512 : 0 < S2000x512.numel
  inb_S2000x128_S2000x128_0_0 : ∀ a, (![0, 0] : Fin 2 → Nat) a + S2000x128.size a ≤ S2000x128.size a
  h_S2000x128 : 0 < S2000x128.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  dot_S2000x512_S2000x128_S512x128_0_0_1_1_n_n_wf : DotDims.WF S2000x512 S2000x128 S512x128 [0] [0] [1] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S512 : Shape := ⟨1, ![512]⟩
abbrev S50000x128 : Shape := ⟨2, ![50000, 128]⟩
abbrev S512x50000 : Shape := ⟨2, ![512, 50000]⟩
abbrev S512x128 : Shape := ⟨2, ![512, 128]⟩
abbrev S512x1 : Shape := ⟨2, ![512, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512, .f32⟩
  | .hbm, ⟨2, _⟩ => ⟨S50000x128, .f32⟩
  | .hbm, ⟨3, _⟩ => ⟨S512x50000, .f32⟩
  | .hbm, ⟨4, _⟩ => ⟨S512x128, .f32⟩
  | .hbm, ⟨5, _⟩ => ⟨S512x1, .f32⟩
  | .hbm, ⟨6, _⟩ => ⟨S512x128, .f32⟩
  | .hbm, ⟨7, _⟩ => ⟨S512x128, .f32⟩
  | .hbm, ⟨8, _⟩ => ⟨S50000x128, .f32⟩
  | .hbm, ⟨9, _⟩ => ⟨S_, .f32⟩
  | .hbm, ⟨10, _⟩ => ⟨S50000x128, .f32⟩
  | .hbm, ⟨11, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  transposes_S50000x512_S512x50000_1_0 : S50000x512.Transposes [1, 0] S512x50000
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S_S50000x128 : S_.BroadcastsInDim S50000x128 (![] : Fin 0 → Fin S50000x128.rank)
  dot_S512x50000_S50000x128_S512x128_1_0_0_1_n_n_wf : DotDims.WF S512x50000 S50000x128 S512x128 [1] [0] [0] [1] [] []
  dot_S50000x512_S512x128_S50000x128_1_0_0_1_n_n_wf : DotDims.WF S50000x512 S512x128 S50000x128 [1] [0] [0] [1] [] []

variable [Facts₀]

def dot_S512x50000_S50000x128_S512x128_1_0_0_1_n_n : DotDims S512x50000 S50000x128 S512x128 where
  lhsContracting := [1]
  rhsContracting := [0]
  lhsNonContracting := [0]
  rhsNonContracting := [1]
  lhsBatch := []
  rhsBatch := []
  wf := dot_S512x50000_S50000x128_S512x128_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KernelIdeal.Shared.lean ====
/- What the two kernel regions' proofs share: where each grid point of the accumulating region stands (first,
   middle, last), at which points its output window is idle, the scratch accumulator as a memory reference, and the
   buffers of the core that neither region's invariant names. -/
import proofs.«153481_j48928267436259_1_alg».proof.Proof.Gen.KernelIdeal.Launch
import proofs.«153481_j48928267436259_1_alg».proof.Proof.Gen.KernelIdeal.Skeleton
import proofs.«153481_j48928267436259_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The accumulating region's two branch conditions over its 25 grid points -/

/-- The accumulator is reset where the grid coordinate is 0: the kernel's own comparison chain. -/
abbrev isFirst (i : grid0.Coords) : Prop :=
  (Scalar.cmpi .ne (Scalar.extui (Scalar.cmpi .eq (BitVec.ofNat 32 (i 0).val) 0#32)) 0#32) = 1#1

/-- It holds at point 0 only. -/
theorem isFirst_iff : ∀ t : Fin cfg0.N, isFirst (grid0.coords t) ↔ t.val = 0 :=
  (by decide +kernel : ∀ t : Fin grid0.N, isFirst (grid0.coords t) ↔ t.val = 0)

/-- The scaled spectrum is written out where the grid coordinate is 24. -/
abbrev isLast (i : grid0.Coords) : Prop := k0_cond2 i = 1#1

/-- It holds at point 24 only. -/
theorem isLast_iff : ∀ t : Fin cfg0.N, isLast (grid0.coords t) ↔ t.val = 24 :=
  (by decide +kernel : ∀ t : Fin grid0.N, isLast (grid0.coords t) ↔ t.val = 24)

/-! ## Where the accumulating region's windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last point nothing is stored into the output window, and it is not written back there. -/
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
/-- At the last point the output window is stored whole. -/
theorem live0_3 : ∀ t : Fin cfg0.N, isLast (grid0.coords t) → cfg0.idle 3 (grid0.coords t) = false := by decide +kernel

/-! ## The scratch accumulator and the rest of the core's scoped buffers -/

/-- The 512 × 128 accumulator, a whole scoped buffer of the first kernel's own. -/
abbrev acc : Memref sig .tc .vmem S512x128 .f32 := Memref.whole cc0_scratch0

/-- The second region's five staging buffers, each whole at some contents: scoped buffers the first region never
    touches. -/
def idleStaging1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scoped buffers the first region's windows do not stage: the accumulator at some contents, and the second
    region's staging buffers. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) acc fullShare d) ∗ idleStaging1 c) := by
  rw [scopedRest0_eq]; unfold idleStaging1; simp only [acc, owns_whole]; rfl

end Cert.KernelIdeal.Hand

end
-- ==== Proof.KernelIdeal.RunFirst.lean ====
/- The accumulating kernel's body at the grid's first point: the accumulator is cleared, then the tile's
   contribution is added into it; nothing is written out. -/
import proofs.«153481_j48928267436259_1_alg».proof.Proof.KernelIdeal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the first point (reset taken, write-out not taken), on whole memory references — the two tile inputs at their
    contents, the accumulator at anything — the body runs to its continuation with the inputs as they were and the
    accumulator holding the pieces its two stores leave (the witness, found by running the body). -/
noncomputable def runFirst (c : Dev nD) (i : grid0.Coords) (arg1 : Memref sig .tc .vmem S2000x512 .f32) (harg1 : arg1.IsWhole) (arg2 : Memref sig .tc .vmem S2000x128 .f32) (harg2 : arg2.IsWhole) (arg3 : Memref sig .tc .vmem S512x1 .f32) (harg3 : arg3.IsWhole) (arg4 : Memref sig .tc .vmem S512x128 .f32) (harg4 : arg4.IsWhole) (arg5 : Memref sig .tc .vmem S512x128 .f32) (harg5 : arg5.IsWhole)
    (hf : isFirst i) (hl : ¬isLast i) (x0 : Vec F S2000x512 .f32) (x1 : Vec F S2000x128 .f32) :
    { LS : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg5 fullShare d)
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f LS)) -∗ K ⟨⟩))
          ⊢ wp frame (wpE (defs₀ (F := F)) Variants.none c none) E (cc0__spec_kernel i arg1 harg1 arg2 harg2 arg3 harg3 arg4 harg4 arg5 harg5) K } := by
  refine ⟨?_, fun E K => ?run⟩
  case run =>
    simp only [cc0__spec_kernel_eq_skeleton]; unfold cc0__spec_kernel_skel
    unfold owns
    iintro ⟨⟨%f0, %hf0, H0⟩, ⟨%f1, %hf1, H1⟩, ⟨%d5, %f5, -, H5⟩, Hk⟩
    obtain rfl := harg1.eq_unread hf0; obtain rfl := harg2.eq_unread hf1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    iexists _; iexact H5

end Cert.KernelIdeal.Hand

end
-- ==== Proof.KernelIdeal.RunMid.lean ====
/- The accumulating kernel's body at a middle grid point: the tile's contribution is added into the accumulator
   the point before left; nothing is reset, nothing is written out. -/
import proofs.«153481_j48928267436259_1_alg».proof.Proof.KernelIdeal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a middle point (neither branch taken), on whole memory references — the two tile inputs at their contents,
    the accumulator at what the point before left — the body runs to its continuation with the inputs as they were
    and the accumulator holding the piece its store leaves. -/
noncomputable def runMid (c : Dev nD) (i : grid0.Coords) (arg1 : Memref sig .tc .vmem S2000x512 .f32) (harg1 : arg1.IsWhole) (arg2 : Memref sig .tc .vmem S2000x128 .f32) (harg2 : arg2.IsWhole) (arg3 : Memref sig .tc .vmem S512x1 .f32) (harg3 : arg3.IsWhole) (arg4 : Memref sig .tc .vmem S512x128 .f32) (harg4 : arg4.IsWhole) (arg5 : Memref sig .tc .vmem S512x128 .f32) (harg5 : arg5.IsWhole)
    (hf : ¬isFirst i) (hl : ¬isLast i) (x0 : Vec F S2000x512 .f32) (x1 : Vec F S2000x128 .f32) (xs : Vec F S512x128 .f32) :
    { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg5 fullShare xs
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f LS)) -∗ K ⟨⟩))
          ⊢ wp frame (wpE (defs₀ (F := F)) Variants.none c none) E (cc0__spec_kernel i arg1 harg1 arg2 harg2 arg3 harg3 arg4 harg4 arg5 harg5) K } := by
  refine ⟨?_, fun E K => ?run⟩
  case run =>
    simp only [cc0__spec_kernel_eq_skeleton]; unfold cc0__spec_kernel_skel
    unfold owns
    iintro ⟨⟨%f0, %hf0, H0⟩, ⟨%f1, %hf1, H1⟩, ⟨%f5, %hf5, H5⟩, Hk⟩
    obtain rfl := harg1.eq_unread hf0; obtain rfl := harg2.eq_unread hf1; obtain rfl := harg5.eq_unread hf5
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    iexists _; iexact H5

end Cert.KernelIdeal.Hand

end
-- ==== Proof.KernelIdeal.RunLast.lean ====
/- The accumulating kernel's body at the grid's last point: the tile's contribution is added into the accumulator,
   and the accumulator, scaled row by row by the filter column, is stored whole into the output window. -/
import proofs.«153481_j48928267436259_1_alg».proof.Proof.KernelIdeal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the last point (no reset, write-out taken), on whole memory references — the two tile inputs and the filter
    column at their contents, the accumulator at what the point before left, the output window's buffer at anything —
    the body runs to its continuation with the inputs as they were, the output buffer holding the pieces of its one
    store and the accumulator the piece of its own. -/
noncomputable def runLast (c : Dev nD) (i : grid0.Coords) (arg1 : Memref sig .tc .vmem S2000x512 .f32) (harg1 : arg1.IsWhole) (arg2 : Memref sig .tc .vmem S2000x128 .f32) (harg2 : arg2.IsWhole) (arg3 : Memref sig .tc .vmem S512x1 .f32) (harg3 : arg3.IsWhole) (arg4 : Memref sig .tc .vmem S512x128 .f32) (harg4 : arg4.IsWhole) (arg5 : Memref sig .tc .vmem S512x128 .f32) (harg5 : arg5.IsWhole)
    (hf : ¬isFirst i) (hl : isLast i) (x0 : Vec F S2000x512 .f32) (x1 : Vec F S2000x128 .f32) (x2 : Vec F S512x1 .f32) (xs : Vec F S512x128 .f32) :
    Σ' (LO : List (View.Piece (Elt F) S512x128 .f32)), { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__spec_kernel i arg1 harg1 arg2 harg2 arg3 harg3 arg4 harg4 arg5 harg5) K } := by
  refine ⟨?_, ?_, fun E K => ?run⟩
  case run =>
    simp only [cc0__spec_kernel_eq_skeleton]; unfold cc0__spec_kernel_skel
    unfold owns
    iintro ⟨⟨%f0, %hf0, H0⟩, ⟨%f1, %hf1, H1⟩, ⟨%f2, %hf2, H2⟩, ⟨%d4, %f4, -, H4⟩, ⟨%f5, %hf5, H5⟩, Hk⟩
    obtain rfl := harg1.eq_unread hf0; obtain rfl := harg2.eq_unread hf1; obtain rfl := harg3.eq_unread hf2; obtain rfl := harg5.eq_unread hf5
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]; · iexists _; iexact H4
    iexists _; iexact H5

end Cert.KernelIdeal.Hand

end
-- ==== Proof.KernelIdeal.Body0.lean ====
/- The first region (the projection of the features onto the eigenvectors, accumulated tile by tile in a scratch
   buffer, scaled by the filter and written out at the last grid point), at the buffer contents `V` it is entered
   from: what the accumulator holds after every grid point, what the output window's buffer holds after the last,
   the region's invariant — the accumulator at what the point before left — and the body obligation. -/
import proofs.«153481_j48928267436259_1_alg».proof.Proof.KernelIdeal.RunFirst
import proofs.«153481_j48928267436259_1_alg».proof.Proof.KernelIdeal.RunMid
import proofs.«153481_j48928267436259_1_alg».proof.Proof.KernelIdeal.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

/-- The current staging memory references at point `t` are whole buffers. -/
abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)

/-! ## Which branch a point takes -/

theorem first_zero (hn : 0 < cfg0.N) : isFirst (grid0.coords ⟨0, hn⟩) := (isFirst_iff ⟨0, hn⟩).mpr rfl
theorem notLast_zero (hn : 0 < cfg0.N) : ¬isLast (grid0.coords ⟨0, hn⟩) :=
  fun h => (fun h => by (try dsimp only at h); omega) ((isLast_iff ⟨0, hn⟩).mp h)
theorem notFirst_succ (n : ℕ) (hn : n + 1 < cfg0.N) : ¬isFirst (grid0.coords ⟨n + 1, hn⟩) :=
  fun h => (fun h => by (try dsimp only at h); omega) ((isFirst_iff ⟨n + 1, hn⟩).mp h)

/-! ## The accumulator after each point, and the output buffer after the last -/

/-- What the accumulator holds after the body at position `n`: at the first point what the reset and the first
    contribution leave; afterwards the point's contribution added to what the point before left. -/
def accAt (c : Dev nD) : (n : ℕ) → n < cfg0.N → Vec F S512x128 .f32
  | 0, hn => View.canon (runFirst c (grid0.coords ⟨0, hn⟩) (st0_0 ⟨0, hn⟩) (hs0_0 ⟨0, hn⟩) (st0_1 ⟨0, hn⟩) (hs0_1 ⟨0, hn⟩) (st0_2 ⟨0, hn⟩) (hs0_2 ⟨0, hn⟩) (st0_3 ⟨0, hn⟩) (hs0_3 ⟨0, hn⟩) acc (Memref.isWhole_whole _) (first_zero hn) (notLast_zero hn) (tile0 V c 0 ⟨0, hn⟩) (tile0 V c 1 ⟨0, hn⟩)).1
  | n + 1, hn =>
    if hl : n + 1 = 24 then
      View.canon (runLast c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) acc (Memref.isWhole_whole _) (notFirst_succ n hn) ((isLast_iff ⟨n + 1, hn⟩).mpr hl) (tile0 V c 0 ⟨n + 1, hn⟩) (tile0 V c 1 ⟨n + 1, hn⟩) (tile0 V c 2 ⟨n + 1, hn⟩) (accAt c n (Nat.lt_of_succ_lt hn))).2.1
    else
      View.canon (runMid c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) acc (Memref.isWhole_whole _) (notFirst_succ n hn) (fun h => hl ((isLast_iff ⟨n + 1, hn⟩).mp h)) (tile0 V c 0 ⟨n + 1, hn⟩) (tile0 V c 1 ⟨n + 1, hn⟩) (accAt c n (Nat.lt_of_succ_lt hn))).1

/-- What the output window's buffer holds after the body at position `n`: at the last point what the body's store
    leaves; elsewhere the body stores nothing into it and the buffer is neither written back nor read again, so the
    value there is a placeholder nothing consults. -/
def outAt (c : Dev nD) : (n : ℕ) → n < cfg0.N → Vec F S512x128 .f32
  | 0, _ => View.canon []
  | n + 1, hn =>
    if hl : n + 1 = 24 then
      View.canon (runLast c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) acc (Memref.isWhole_whole _) (notFirst_succ n hn) ((isLast_iff ⟨n + 1, hn⟩).mpr hl) (tile0 V c 0 ⟨n + 1, hn⟩) (tile0 V c 1 ⟨n + 1, hn⟩) (tile0 V c 2 ⟨n + 1, hn⟩) (accAt V c n (Nat.lt_of_succ_lt hn))).1
    else View.canon []

/-- The accumulator after the first point. -/
theorem accAt_first (c : Dev nD) (t : Fin cfg0.N) (h0 : t.val = 0) (hl : ¬t.val = 24) :
    accAt V c t.val t.isLt = View.canon (runFirst c (grid0.coords t) (st0_0 t) (hs0_0 t) (st0_1 t) (hs0_1 t) (st0_2 t) (hs0_2 t) (st0_3 t) (hs0_3 t) acc (Memref.isWhole_whole _) ((isFirst_iff t).mpr h0) (fun h => hl ((isLast_iff t).mp h)) (tile0 V c 0 t) (tile0 V c 1 t)).1 := by
  obtain ⟨n, hn⟩ := t
  cases n with
  | zero => exact rfl
  | succ n => exact absurd h0 (Nat.succ_ne_zero n)

/-- The accumulator after a middle point, over what the point before left. -/
theorem accAt_mid (c : Dev nD) (t : Fin cfg0.N) (h0 : ¬t.val = 0) (hl : ¬t.val = 24) :
    accAt V c t.val t.isLt = View.canon (runMid c (grid0.coords t) (st0_0 t) (hs0_0 t) (st0_1 t) (hs0_1 t) (st0_2 t) (hs0_2 t) (st0_3 t) (hs0_3 t) acc (Memref.isWhole_whole _) (fun h => h0 ((isFirst_iff t).mp h)) (fun h => hl ((isLast_iff t).mp h)) (tile0 V c 0 t) (tile0 V c 1 t) (accAt V c (t.val - 1) (Nat.lt_of_le_of_lt (Nat.sub_le _ _) t.isLt))).1 := by
  obtain ⟨n, hn⟩ := t
  cases n with
  | zero => exact absurd rfl h0
  | succ n => exact (dif_neg hl).trans rfl

/-- The accumulator after the last point, over what the point before left. -/
theorem accAt_last (c : Dev nD) (t : Fin cfg0.N) (h0 : ¬t.val = 0) (hl : t.val = 24) :
    accAt V c t.val t.isLt = View.canon (runLast c (grid0.coords t) (st0_0 t) (hs0_0 t) (st0_1 t) (hs0_1 t) (st0_2 t) (hs0_2 t) (st0_3 t) (hs0_3 t) acc (Memref.isWhole_whole _) (fun h => h0 ((isFirst_iff t).mp h)) ((isLast_iff t).mpr hl) (tile0 V c 0 t) (tile0 V c 1 t) (tile0 V c 2 t) (accAt V c (t.val - 1) (Nat.lt_of_le_of_lt (Nat.sub_le _ _) t.isLt))).2.1 := by
  obtain ⟨n, hn⟩ := t
  cases n with
  | zero => exact absurd rfl h0
  | succ n => exact (dif_pos hl).trans rfl

/-- The output buffer after the last point. -/
theorem outAt_last (c : Dev nD) (t : Fin cfg0.N) (h0 : ¬t.val = 0) (hl : t.val = 24) :
    outAt V c t.val t.isLt = View.canon (runLast c (grid0.coords t) (st0_0 t) (hs0_0 t) (st0_1 t) (hs0_1 t) (st0_2 t) (hs0_2 t) (st0_3 t) (hs0_3 t) acc (Memref.isWhole_whole _) (fun h => h0 ((isFirst_iff t).mp h)) ((isLast_iff t).mpr hl) (tile0 V c 0 t) (tile0 V c 1 t) (tile0 V c 2 t) (accAt V c (t.val - 1) (Nat.lt_of_le_of_lt (Nat.sub_le _ _) t.isLt))).1 := by
  obtain ⟨n, hn⟩ := t
  cases n with
  | zero => exact absurd rfl h0
  | succ n => exact (dif_pos hl).trans rfl

/-! ## The stores cover their buffers -/

theorem coverFirst (c : Dev nD) (i : grid0.Coords) (arg1 : Memref sig .tc .vmem S2000x512 .f32) (harg1 : arg1.IsWhole) (arg2 : Memref sig .tc .vmem S2000x128 .f32) (harg2 : arg2.IsWhole) (arg3 : Memref sig .tc .vmem S512x1 .f32) (harg3 : arg3.IsWhole) (arg4 : Memref sig .tc .vmem S512x128 .f32) (harg4 : arg4.IsWhole) (arg5 : Memref sig .tc .vmem S512x128 .f32) (harg5 : arg5.IsWhole) (hf : isFirst i) (hl : ¬isLast i) (x0 : Vec F S2000x512 .f32) (x1 : Vec F S2000x128 .f32) (y : S512x128.Idx) :
    ∃ pc ∈ (runFirst c i arg1 harg1 arg2 harg2 arg3 harg3 arg4 harg4 arg5 harg5 hf hl x0 x1).1, y ∈ pc.1.set :=
  View.cover_of_tiledL (runFirst c i arg1 harg1 arg2 harg2 arg3 harg3 arg4 harg4 arg5 harg5 hf hl x0 x1).1 S512x128.size (by sl_kernel_rfl) y
theorem coverMid (c : Dev nD) (i : grid0.Coords) (arg1 : Memref sig .tc .vmem S2000x512 .f32) (harg1 : arg1.IsWhole) (arg2 : Memref sig .tc .vmem S2000x128 .f32) (harg2 : arg2.IsWhole) (arg3 : Memref sig .tc .vmem S512x1 .f32) (harg3 : arg3.IsWhole) (arg4 : Memref sig .tc .vmem S512x128 .f32) (harg4 : arg4.IsWhole) (arg5 : Memref sig .tc .vmem S512x128 .f32) (harg5 : arg5.IsWhole) (hf : ¬isFirst i) (hl : ¬isLast i) (x0 : Vec F S2000x512 .f32) (x1 : Vec F S2000x128 .f32) (xs : Vec F S512x128 .f32) (y : S512x128.Idx) :
    ∃ pc ∈ (runMid c i arg1 harg1 arg2 harg2 arg3 harg3 arg4 harg4 arg5 harg5 hf hl x0 x1 xs).1, y ∈ pc.1.set :=
  View.cover_of_tiledL (runMid c i arg1 harg1 arg2 harg2 arg3 harg3 arg4 harg4 arg5 harg5 hf hl x0 x1 xs).1 S512x128.size (by sl_kernel_rfl) y
theorem coverLastAcc (c : Dev nD) (i : grid0.Coords) (arg1 : Memref sig .tc .vmem S2000x512 .f32) (harg1 : arg1.IsWhole) (arg2 : Memref sig .tc .vmem S2000x128 .f32) (harg2 : arg2.IsWhole) (arg3 : Memref sig .tc .vmem S512x1 .f32) (harg3 : arg3.IsWhole) (arg4 : Memref sig .tc .vmem S512x128 .f32) (harg4 : arg4.IsWhole) (arg5 : Memref sig .tc .vmem S512x128 .f32) (harg5 : arg5.IsWhole) (hf : ¬isFirst i) (hl : isLast i) (x0 : Vec F S2000x512 .f32) (x1 : Vec F S2000x128 .f32) (x2 : Vec F S512x1 .f32) (xs : Vec F S512x128 .f32) (y : S512x128.Idx) :
    ∃ pc ∈ (runLast c i arg1 harg1 arg2 harg2 arg3 harg3 arg4 harg4 arg5 harg5 hf hl x0 x1 x2 xs).2.1, y ∈ pc.1.set :=
  View.cover_of_tiledL (runLast c i arg1 harg1 arg2 harg2 arg3 harg3 arg4 harg4 arg5 harg5 hf hl x0 x1 x2 xs).2.1 S512x128.size (by sl_kernel_rfl) y
theorem coverLastOut (c : Dev nD) (i : grid0.Coords) (arg1 : Memref sig .tc .vmem S2000x512 .f32) (harg1 : arg1.IsWhole) (arg2 : Memref sig .tc .vmem S2000x128 .f32) (harg2 : arg2.IsWhole) (arg3 : Memref sig .tc .vmem S512x1 .f32) (harg3 : arg3.IsWhole) (arg4 : Memref sig .tc .vmem S512x128 .f32) (harg4 : arg4.IsWhole) (arg5 : Memref sig .tc .vmem S512x128 .f32) (harg5 : arg5.IsWhole) (hf : ¬isFirst i) (hl : isLast i) (x0 : Vec F S2000x512 .f32) (x1 : Vec F S2000x128 .f32) (x2 : Vec F S512x1 .f32) (xs : Vec F S512x128 .f32) (y : S512x128.Idx) :
    ∃ pc ∈ (runLast c i arg1 harg1 arg2 harg2 arg3 harg3 arg4 harg4 arg5 harg5 hf hl x0 x1 x2 xs).1, y ∈ pc.1.set :=
  View.cover_of_tiledL (runLast c i arg1 harg1 arg2 harg2 arg3 harg3 arg4 harg4 arg5 harg5 hf hl x0 x1 x2 xs).1 S512x128.size (by sl_kernel_rfl) y

/-! ## The region's invariant -/

/-- Before position `n`: at the start, the scoped buffers no window stages (the accumulator among them, at anything)
    and the generator register; afterwards the accumulator at what the point before left, the second region's
    staging buffers, the generator register. -/
def Phi0 (c : Dev nD) : (n : ℕ) → n ≤ cfg0.N → sProp 𝕄
  | 0, _ => Pipeline.ΦA spec0 c
  | n + 1, hn => iprop(owns (c : Thread nD τ) acc fullShare (accAt V c n hn) ∗ idleStaging1 c ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) acc fullShare (accAt V c n hn) ∗ idleStaging1 c ∗ (∃ r, prngReg c r)) := rfl

theorem Phi0_pos (c : Dev nD) (n : ℕ) (h : n ≤ cfg0.N) (hz : n ≠ 0) :
    Phi0 V c n h = iprop(owns (c : Thread nD τ) acc fullShare (accAt V c (n - 1) (by omega)) ∗ idleStaging1 c ∗ (∃ r, prngReg c r)) := by
  cases n with
  | zero => exact absurd rfl hz
  | succ n => rfl

/-- The invariant's first form with the accumulator split out of the scoped buffers. -/
theorem PhiA0_eq (c : Dev nD) :
    (Pipeline.ΦA spec0 c : sProp 𝕄) = iprop(((∃ d, owns (c : Thread nD τ) acc fullShare d) ∗ idleStaging1 c) ∗ (∃ r, prngReg c r)) := by
  unfold Pipeline.ΦA; rw [scopedRest0_split]

/-! ## The proof data -/

/-- The region's proof data on core `c`: the arrays as the region finds them; after the body each input's buffer at
    its block and the output's at `outAt`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => outAt V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = tile0 V c 2 t := by dsimp only [dat0]
theorem after0_3 (c : Dev nD) (t : Fin cfg0.N) : (dat0 V c).after 3 t = outAt V c t.val t.isLt := by dsimp only [dat0]

theorem before0_0 (c : Dev nD) (t : Fin cfg0.N) (d) : (dat0 V c).before 0 t d = tile0 V c 0 t :=
  before0_0_of V (dat0 V c) (A_eq0 V c 0) (after0_0 V c) t d
theorem before0_1 (c : Dev nD) (t : Fin cfg0.N) (d) : (dat0 V c).before 1 t d = tile0 V c 1 t :=
  before0_1_of V (dat0 V c) (A_eq0 V c 1) (after0_1 V c) t d
theorem before0_2 (c : Dev nD) (t : Fin cfg0.N) (d) : (dat0 V c).before 2 t d = tile0 V c 2 t :=
  before0_2_of V (dat0 V c) (A_eq0 V c 2) (after0_2 V c) t d

end

end Cert.KernelIdeal.Hand

end
-- ==== Proof.KernelIdeal.Oblig0.lean ====
/- The first region's body obligation: at every grid point the kernel body, handed the invariant and the windows'
   buffers, returns the invariant for the next point — the accumulator at what this point leaves — and every window's
   buffer at what the proof data say. Three kinds of point: the first (reset, accumulate), the middle ones
   (accumulate), the last (accumulate, scale, write out). -/
import proofs.«153481_j48928267436259_1_alg».proof.Proof.KernelIdeal.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position says which branches it takes;
    the invariant hands the body the accumulator (at anything at the first point, at what the point before left
    afterwards) and takes it back at this point's contents, the stores covering the buffer; away from the last point
    the output window is idle and its buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  have hN : t.val < 25 := lt_of_lt_of_eq t.isLt (show cfg0.N = 25 from N_0)
  by_cases h0 : t.val = 0
  · have hl : ¬t.val = 24 := by omega
    rw [Dat.leavesExact_idle (dat0 V c) 3 t (idle0_3 t (fun h => hl ((isLast_iff t).mp h))) (noFlush0_3 t (fun h => hl ((isLast_iff t).mp h)))]
    rw [accAt_first V c t h0 hl]
    rw [Phi0_castSucc V c t, Phi0_zero V c _ _ h0, PhiA0_eq]
    iintro ⟨⟨⟨HS, Hst⟩, Hg⟩, Ho, ⟨%d0, H0⟩, ⟨%d1, H1⟩, ⟨%d2, H2⟩, ⟨%d3, H3⟩⟩
    iapply ((runFirst c (grid0.coords t) (st0_0 t) (hs0_0 t) (st0_1 t) (hs0_1 t) (st0_2 t) (hs0_2 t) (st0_3 t) (hs0_3 t) acc (Memref.isWhole_whole _) ((isFirst_iff t).mpr h0) (fun h => hl ((isLast_iff t).mp h)) (tile0 V c 0 t) (tile0 V c 1 t)).2 Set.univ _)
    isplitl [H0]; · iexact H0
    isplitl [H1]; · iexact H1
    isplitl [HS]; · iexact HS
    iintro ⟨H0, H1, ⟨%es, HS⟩⟩
    isplitl [HS Hst Hg]
    · isplitl [HS]
      · unfold owns; iexists _; isplitr
        swap; · iexact HS
        ipureintro; exact View.read_writes_eq_canon _ _ _ (coverFirst c _ _ _ _ _ _ _ _ _ _ _ _ _ _ _)
      isplitl [Hst]; · iexact Hst
      iexact Hg
    isplitl [Ho]; · iexact Ho
    isplitl [H0]; · iexact H0
    isplitl [H1]; · iexact H1
    isplitl [H2]; · iexact H2
    iexists _; iexact H3
  · by_cases hl : t.val = 24
    · rw [show (dat0 V c).leavesExact 3 t = owns (c : Thread nD τ) (st0_3 t) fullShare ((dat0 V c).after 3 t) from by
        unfold Dat.leavesExact; rw [live0_3 t ((isLast_iff t).mpr hl)], after0_3]
      rw [accAt_last V c t h0 hl, outAt_last V c t h0 hl]
      rw [Phi0_castSucc V c t, Phi0_pos V c _ _ h0]
      iintro ⟨⟨HS, Hst, Hg⟩, Ho, ⟨%d0, H0⟩, ⟨%d1, H1⟩, ⟨%d2, H2⟩, ⟨%d3, H3⟩⟩
      iapply ((runLast c (grid0.coords t) (st0_0 t) (hs0_0 t) (st0_1 t) (hs0_1 t) (st0_2 t) (hs0_2 t) (st0_3 t) (hs0_3 t) acc (Memref.isWhole_whole _) (fun h => h0 ((isFirst_iff t).mp h)) ((isLast_iff t).mpr hl) (tile0 V c 0 t) (tile0 V c 1 t) (tile0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hst Hg]
      · isplitl [HS]
        · unfold owns; iexists _; isplitr
          swap; · iexact HS
          ipureintro; exact View.read_writes_eq_canon _ _ _ (coverLastAcc c _ _ _ _ _ _ _ _ _ _ _ _ _ _ _ _ _)
        isplitl [Hst]; · iexact Hst
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverLastOut c _ _ _ _ _ _ _ _ _ _ _ _ _ _ _ _ _)
    · rw [Dat.leavesExact_idle (dat0 V c) 3 t (idle0_3 t (fun h => hl ((isLast_iff t).mp h))) (noFlush0_3 t (fun h => hl ((isLast_iff t).mp h)))]
      rw [accAt_mid V c t h0 hl]
      rw [Phi0_castSucc V c t, Phi0_pos V c _ _ h0]
      iintro ⟨⟨HS, Hst, Hg⟩, Ho, ⟨%d0, H0⟩, ⟨%d1, H1⟩, ⟨%d2, H2⟩, ⟨%d3, H3⟩⟩
      iapply ((runMid c (grid0.coords t) (st0_0 t) (hs0_0 t) (st0_1 t) (hs0_1 t) (st0_2 t) (hs0_2 t) (st0_3 t) (hs0_3 t) acc (Memref.isWhole_whole _) (fun h => h0 ((isFirst_iff t).mp h)) (fun h => hl ((isLast_iff t).mp h)) (tile0 V c 0 t) (tile0 V c 1 t) _).2 Set.univ _)
      isplitl [H0]; · iexact H0
      isplitl [H1]; · iexact H1
      isplitl [HS]; · iexact HS
      iintro ⟨H0, H1, ⟨%es, HS⟩⟩
      isplitl [HS Hst Hg]
      · isplitl [HS]
        · unfold owns; iexists _; isplitr
          swap; · iexact HS
          ipureintro; exact View.read_writes_eq_canon _ _ _ (coverMid c _ _ _ _ _ _ _ _ _ _ _ _ _ _ _ _)
        isplitl [Hst]; · iexact Hst
        iexact Hg
      isplitl [Ho]; · iexact Ho
      isplitl [H0]; · iexact H0
      isplitl [H1]; · iexact H1
      isplitl [H2]; · iexact H2
      iexists _; iexact H3

/-- The body obligation of the first region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the scoped buffers back: the accumulator's contents are forgotten. -/
theorem hout0 (c : Dev nD) : (dat0 V c).Φ (Fin.last cfg0.N) ⊢ Pipeline.ΦA spec0 c := by
  have hN : cfg0.N = 25 := N_0
  rw [show (dat0 V c).Φ (Fin.last cfg0.N) = Phi0 V c (Fin.last cfg0.N).val (Nat.le_of_lt_succ (Fin.last cfg0.N).isLt) from rfl,
    Phi0_pos V c _ _ (by rw [Fin.val_last]; omega), PhiA0_eq]
  iintro ⟨HS, Hst, Hg⟩
  isplitl [HS Hst]
  · isplitl [HS]; · iexists _; iexact HS
    iexact Hst
  iexact Hg

end

end Cert.KernelIdeal.Hand

end
-- ==== Proof.KernelIdeal.RunLogits.lean ====
/- The second kernel's body at any grid point: the tile of eigenvector rows times the filtered spectrum, clipped
   below at zero, stored whole into the output window. -/
import proofs.«153481_j48928267436259_1_alg».proof.Proof.KernelIdeal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memory references — the eigenvector tile and the filtered spectrum at their contents, the output window's
    buffer at anything — the body runs to its continuation with the inputs as they were and the output buffer holding
    the piece its one store leaves. -/
noncomputable def runLogits (c : Dev nD) (i : grid1.Coords) (arg1 : Memref sig .tc .vmem S2000x512 .f32) (harg1 : arg1.IsWhole) (arg2 : Memref sig .tc .vmem S512x128 .f32) (harg2 : arg2.IsWhole) (arg3 : Memref sig .tc .vmem S2000x128 .f32) (harg3 : arg3.IsWhole)
    (x0 : Vec F S2000x512 .f32) (x1 : Vec F S512x128 .f32) :
    { L : List (View.Piece (Elt F) S2000x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc1__logits_kernel i arg1 harg1 arg2 harg2 arg3 harg3) K } := by
  refine ⟨?_, fun E K => ?run⟩
  case run =>
    simp only [cc1__logits_kernel_eq_skeleton]; unfold cc1__logits_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KernelIdeal.Body1.lean ====
/- The second region (eigenvector tile times filtered spectrum, clipped at zero), at the buffer contents `V` it is
   entered from: what each window's staging buffer holds at every grid point, and that the kernel body, run on those
   buffers, leaves the output window's buffer at the body's one stored value. -/
import proofs.«153481_j48928267436259_1_alg».proof.Proof.KernelIdeal.RunLogits

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The eigenvector window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- The same for the filtered spectrum's window, fetched once: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-- The current staging memory references at point `t`, and that each is a whole buffer. -/
abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)

/-- The pieces the body's store leaves in the output window's buffer at point `t`. -/
def pieces1 (c : Dev nD) (t : Fin cfg1.N) : List (View.Piece (Elt F) S2000x128 .f32) :=
  (runLogits c (grid1.coords t) (st1_0 t) (hs1_0 t) (st1_1 t) (hs1_1 t) (st1_2 t) (hs1_2 t) (tile1 V c 0 t) (tile1 V c 1 t)).1

/-- They tile the 2000 × 128 block, so they cover it. -/
theorem cover1 (c : Dev nD) (t : Fin cfg1.N) (y : S2000x128.Idx) : ∃ pc ∈ pieces1 V c t, y ∈ pc.1.set :=
  View.cover_of_tiledL (pieces1 V c t) S2000x128.size (by unfold pieces1; sl_kernel_rfl) y

/-- What the body leaves in the output window's buffer at point `t`. -/
def out1 (c : Dev nD) (t : Fin cfg1.N) : Vec F S2000x128 .f32 := View.canon (pieces1 V c t)

/-- The region's proof data on core `c`: the arrays as the region finds them; after the body each input's buffer at
    its block, the output's at `out1`; the invariant the scoped buffers no window stages and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = out1 V c t := by dsimp only [dat1]

theorem before1_0 (c : Dev nD) (t : Fin cfg1.N) (d) : (dat1 V c).before 0 t d = tile1 V c 0 t :=
  before1_0_of V (dat1 V c) (A_eq1 V c 0) (after1_0 V c) t d
theorem before1_1 (c : Dev nD) (t : Fin cfg1.N) (d) : (dat1 V c).before 1 t d = tile1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: the inputs' buffers hold their blocks, so the body's run applies; the invariant and the
    core's dues pass through unread; the output buffer ends at the canon of the body's covering store. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply ((runLogits c (grid1.coords t) (st1_0 t) (hs1_0 t) (st1_1 t) (hs1_1 t) (st1_2 t) (hs1_2 t) (tile1 V c 0 t) (tile1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro
  exact View.read_writes_eq_canon _ _ _ (cover1 V c t)

/-- The body obligation of the second region, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KernelIdeal.Whole.lean ====
/- The whole run of @main: the reshape of the filter into a column, the accumulating region, the second region.
   The buffer contents at each boundary are a fold from the launch memory — after the host stretch, then each region's
   arrays at what its write-backs leave —; each region is entered from every unscoped buffer at the boundary's contents
   and left at the next boundary's. At the end every unscoped buffer holds the last boundary's contents: the three
   arguments as launched, the result at what the second region's write-backs leave. -/
import proofs.«153481_j48928267436259_1_alg».proof.Proof.KernelIdeal.Oblig0
import proofs.«153481_j48928267436259_1_alg».proof.Proof.KernelIdeal.Body1
import proofs.«153481_j48928267436259_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, and after the host stretch (the first region's entry). -/
abbrev W0 : Dev nD → Valuation τ sig (Elt F) := fun c => Gen.V0 m c
abbrev W1 : Dev nD → Valuation τ sig (Elt F) := fun c => Gen.V1 m c
/-- The same read at the TensorCore's references: what the first region's proof data take. -/
abbrev in0 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (in0 m) c).arrAt w cfg0.N
theorem W2_arr (c : Dev nD) (w : Fin cfg0.W) :
    W2 m c (Proc.devRef .tc (Pipeline.arrRef spec0 w)) = (dat0 (in0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The second region's entry contents at the TensorCore's references. -/
abbrev in1 : (c : Dev nD) → (b : Ref sig .tc) → Buf (Elt F) ((c : Thread nD τ).loc b) := fun c b => W2 m c b
theorem hF0 (c : Dev nD) (w : Fin cfg0.W) : (dat0 (in0 m) c).arrAt w cfg0.N = in1 m c (Pipeline.arrRef spec0 w) :=
  (W2_arr m c w).symm
theorem hrest0 (c : Dev nD) : ∀ b, b ∉ Finset.univ.image (Pipeline.arrRef spec0) → in1 m c b = in0 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (in1 m) c).arrAt w cfg1.N
theorem W3_arr (c : Dev nD) (w : Fin cfg1.W) :
    W3 m c (Proc.devRef .tc (Pipeline.arrRef spec1 w)) = (dat1 (in1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev end1 : (c : Dev nD) → (b : Ref sig .tc) → Buf (Elt F) ((c : Thread nD τ).loc b) := fun c b => W3 m c b
theorem hF1 (c : Dev nD) (w : Fin cfg1.W) : (dat1 (in1 m) c).arrAt w cfg1.N = end1 m c (Pipeline.arrRef spec1 w) :=
  (W3_arr m c w).symm
theorem hrest1 (c : Dev nD) : ∀ b, b ∉ Finset.univ.image (Pipeline.arrRef spec1) → end1 m c b = in1 m c b :=
  fun b hb => W3_of_ne m c b fun w e => hb (Finset.mem_image.mpr ⟨w, Finset.mem_univ _, e⟩)

/-! ## The arguments end as launched -/

/-- The eigenvectors: an input window of both regions, written by no host operation. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (in1 m) c).arrAt_in 0 rfl _).trans (A_eq1 (in1 m) c 0))
    _ = W1 m c (Proc.devRef .tc main_arg0) := (W2_arr m c 0).trans (((dat0 (in0 m) c).arrAt_in 0 rfl _).trans (A_eq0 (in0 m) c 0))
    _ = m ((c : Thread nD τ).loc main_arg0) := (Gen.V1_of m c main_arg0 (by decide)).trans rfl

/-- The filter: staged by no window (its reshaped copy is), written by no host operation. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (Gen.V1_of m c main_arg1 (by decide)).trans rfl

/-- The features: an input window of the first region only. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (in0 m) c).arrAt_in 1 rfl _).trans (A_eq0 (in0 m) c 1))
    _ = m ((c : Thread nD τ).loc main_arg2) := (Gen.V1_of m c main_arg2 (by decide)).trans rfl

/-- The result buffer holds what the second region's write-backs leave. -/
theorem W3_main_v2 (c : Dev nD) : W3 m c (Proc.devRef .tc main_v2) = (dat1 (in1 m) c).arrAt 2 cfg1.N := W3_arr m c 2

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (in0 m) c
  | ⟨1, _⟩ => fun c => dat1 (in1 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (in0 m) c)
    unfold Pipeline.ΦA
    iintro ⟨Hp, -, Hr⟩
    isplitl [Hr]; · iexact Hr
    iexact Hp
  hout c := by
    rw [Pipeline.ownSems0_none]
    refine (hout0 (in0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (in1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (end1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    in every final state every unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

/-- The same run with the result named: the result buffer ends at what the second region's write-backs leave. -/
theorem run_value : θ_run defs (onTc (τ := τ) (main (F := F))) ⟨m, fun _ => 0, ρ⟩ (fun r => ∀ c : Dev nD,
      r.2.mem ((c.tc : Thread nD τ).loc main_v2) = (dat1 (in1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

end Cert.KernelIdeal.Hand

end
-- ==== Proof.KernelIdeal.Pieces.lean ====
/- What the kernel bodies' stores leave, as the bodies' own payload terms: each run's pieces, read back, are the
   payload of the last whole-buffer store, its loads resolved to the contents the buffers held (an accumulator
   cleared and read back in the same run reads the cleared value). -/
import proofs.«153481_j48928267436259_1_alg».proof.Proof.KernelIdeal.RunFirst
import proofs.«153481_j48928267436259_1_alg».proof.Proof.KernelIdeal.RunMid
import proofs.«153481_j48928267436259_1_alg».proof.Proof.KernelIdeal.RunLast
import proofs.«153481_j48928267436259_1_alg».proof.Proof.KernelIdeal.RunLogits
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The bodies' rectangles all start at offset zero on both axes. -/
theorem zeroOff : (![0, 0] : Fin 2 → ℕ) = fun _ => 0 := by
  funext a; match a with | ⟨0, _⟩ => rfl | ⟨1, _⟩ => rfl

/-- A middle point leaves the accumulator at its old contents plus the tile's product. -/
theorem canon_runMid (c : Dev nD) (i : grid0.Coords) (arg1 : Memref sig .tc .vmem S2000x512 .f32) (harg1 : arg1.IsWhole) (arg2 : Memref sig .tc .vmem S2000x128 .f32) (harg2 : arg2.IsWhole) (arg3 : Memref sig .tc .vmem S512x1 .f32) (harg3 : arg3.IsWhole) (arg4 : Memref sig .tc .vmem S512x128 .f32) (harg4 : arg4.IsWhole) (arg5 : Memref sig .tc .vmem S512x128 .f32) (harg5 : arg5.IsWhole) (hf : ¬isFirst i) (hl : ¬isLast i) (x0 : Vec F S2000x512 .f32) (x1 : Vec F S2000x128 .f32) (xs : Vec F S512x128 .f32) :
    View.canon (runMid c i arg1 harg1 arg2 harg2 arg3 harg3 arg4 harg4 arg5 harg5 hf hl x0 x1 xs).1 = k0_pay2 x0 x1 xs := by
  unfold runMid
  dsimp only
  sl_unfold_words
  rw [View.canon_unit_zero (S := S512x128) zeroOff]
  simp only [View.readAt_eq_ld, harg1.read_unread, harg2.read_unread, harg5.read_unread, View.ld_unit_zero (S := S2000x512) zeroOff, View.ld_unit_zero (S := S2000x128) zeroOff, View.ld_unit_zero (S := S512x128) zeroOff]

/-- The first point leaves the accumulator at the cleared value plus the tile's product. -/
theorem canon_runFirst (c : Dev nD) (i : grid0.Coords) (arg1 : Memref sig .tc .vmem S2000x512 .f32) (harg1 : arg1.IsWhole) (arg2 : Memref sig .tc .vmem S2000x128 .f32) (harg2 : arg2.IsWhole) (arg3 : Memref sig .tc .vmem S512x1 .f32) (harg3 : arg3.IsWhole) (arg4 : Memref sig .tc .vmem S512x128 .f32) (harg4 : arg4.IsWhole) (arg5 : Memref sig .tc .vmem S512x128 .f32) (harg5 : arg5.IsWhole) (hf : isFirst i) (hl : ¬isLast i) (x0 : Vec F S2000x512 .f32) (x1 : Vec F S2000x128 .f32) :
    View.canon (runFirst c i arg1 harg1 arg2 harg2 arg3 harg3 arg4 harg4 arg5 harg5 hf hl x0 x1).1 = k0_pay2 x0 x1 (k0_pay1 (F := F)) := by
  unfold runFirst
  dsimp only
  sl_unfold_words
  rw [View.canon_cons_unit_zero (S := S512x128) zeroOff, View.readCov_unit_zero (S := S512x128) _ zeroOff]
  simp only [View.readAt_eq_ld, harg1.read_unread, harg2.read_unread, View.ld_unit_zero (S := S2000x512) zeroOff, View.ld_unit_zero (S := S2000x128) zeroOff]

/-- The last point leaves the accumulator likewise, -/
theorem canon_runLast_acc (c : Dev nD) (i : grid0.Coords) (arg1 : Memref sig .tc .vmem S2000x512 .f32) (harg1 : arg1.IsWhole) (arg2 : Memref sig .tc .vmem S2000x128 .f32) (harg2 : arg2.IsWhole) (arg3 : Memref sig .tc .vmem S512x1 .f32) (harg3 : arg3.IsWhole) (arg4 : Memref sig .tc .vmem S512x128 .f32) (harg4 : arg4.IsWhole) (arg5 : Memref sig .tc .vmem S512x128 .f32) (harg5 : arg5.IsWhole) (hf : ¬isFirst i) (hl : isLast i) (x0 : Vec F S2000x512 .f32) (x1 : Vec F S2000x128 .f32) (x2 : Vec F S512x1 .f32) (xs : Vec F S512x128 .f32) :
    View.canon (runLast c i arg1 harg1 arg2 harg2 arg3 harg3 arg4 harg4 arg5 harg5 hf hl x0 x1 x2 xs).2.1 = k0_pay2 x0 x1 xs := by
  unfold runLast
  dsimp only
  sl_unfold_words
  rw [View.canon_unit_zero (S := S512x128) zeroOff]
  simp only [View.readAt_eq_ld, harg1.read_unread, harg2.read_unread, harg5.read_unread, View.ld_unit_zero (S := S2000x512) zeroOff, View.ld_unit_zero (S := S2000x128) zeroOff, View.ld_unit_zero (S := S512x128) zeroOff]

/-- and the output buffer at that new accumulator scaled by the filter column. -/
theorem canon_runLast_out (c : Dev nD) (i : grid0.Coords) (arg1 : Memref sig .tc .vmem S2000x512 .f32) (harg1 : arg1.IsWhole) (arg2 : Memref sig .tc .vmem S2000x128 .f32) (harg2 : arg2.IsWhole) (arg3 : Memref sig .tc .vmem S512x1 .f32) (harg3 : arg3.IsWhole) (arg4 : Memref sig .tc .vmem S512x128 .f32) (harg4 : arg4.IsWhole) (arg5 : Memref sig .tc .vmem S512x128 .f32) (harg5 : arg5.IsWhole) (hf : ¬isFirst i) (hl : isLast i) (x0 : Vec F S2000x512 .f32) (x1 : Vec F S2000x128 .f32) (x2 : Vec F S512x1 .f32) (xs : Vec F S512x128 .f32) :
    View.canon (runLast c i arg1 harg1 arg2 harg2 arg3 harg3 arg4 harg4 arg5 harg5 hf hl x0 x1 x2 xs).1 = k0_pay3 (k0_pay2 x0 x1 xs) x2 := by
  unfold runLast
  dsimp only
  sl_unfold_words
  rw [View.canon_unit_zero (S := S512x128) zeroOff, View.readCov_unit_zero (S := S512x128) _ zeroOff]
  simp only [View.readAt_eq_ld, harg1.read_unread, harg2.read_unread, harg3.read_unread, harg5.read_unread, View.ld_unit_zero (S := S2000x512) zeroOff, View.ld_unit_zero (S := S2000x128) zeroOff, View.ld_unit_zero (S := S512x1) zeroOff, View.ld_unit_zero (S := S512x128) zeroOff]

/-- The second kernel leaves its output buffer at the clipped product. -/
theorem canon_runLogits (c : Dev nD) (i : grid1.Coords) (arg1 : Memref sig .tc .vmem S2000x512 .f32) (harg1 : arg1.IsWhole) (arg2 : Memref sig .tc .vmem S512x128 .f32) (harg2 : arg2.IsWhole) (arg3 : Memref sig .tc .vmem S2000x128 .f32) (harg3 : arg3.IsWhole)
    (x0 : Vec F S2000x512 .f32) (x1 : Vec F S512x128 .f32) :
    View.canon (runLogits c i arg1 harg1 arg2 harg2 arg3 harg3 x0 x1).1 = k1_pay1 x0 x1 := by
  unfold runLogits
  dsimp only
  sl_unfold_words
  rw [View.canon_unit_zero (S := S2000x128) zeroOff]
  simp only [View.readAt_eq_ld, harg1.read_unread, harg2.read_unread, View.ld_unit_zero (S := S2000x512) zeroOff, View.ld_unit_zero (S := S512x128) zeroOff]

end Cert.KernelIdeal.Hand

end
-- ==== Proof.Spec.lean ====
/- The spectral convolution as one function of its three arrays.

   For eigenvectors U (50000 × 512), spectral filters g (512) and features x (50000 × 128), over the extended
   reals:  the projection of feature column f onto eigenvector k is  P(k, f) = Σ_n U(n, k) · x(n, f);  the
   filtered spectrum is  P(k, f) · g(k);  the result at node n is  max(Σ_k U(n, k) · (P(k, f) · g(k)), 0).
   Sums in the extended reals are sums in a commutative monoid, so their grouping and order are free; products
   commute. Nothing here needs the entries to be finite. -/
import Idealize.ShloMosaic.PureOps.Ideal
import Idealize.ShloMosaic.Lib.ValueIdx

noncomputable section

namespace Cert.SpectralConv

open Idealize.ShloMosaic Idealize.ShloMosaic.ValueIdx
open scoped BigOperators

/-- The eigenvector matrix's shape, the filter's, the features' (and the result's), the spectrum's. -/
abbrev SU : Shape := ⟨2, ![50000, 512]⟩
abbrev SG : Shape := ⟨1, ![512]⟩
abbrev SX : Shape := ⟨2, ![50000, 128]⟩
abbrev SW : Shape := ⟨2, ![512, 128]⟩

/-- The projection of feature column `f` onto eigenvector `k`: the sum over all nodes of U(n, k) · x(n, f). -/
def proj (U : SU.Idx → EReal) (x : SX.Idx → EReal) (k : Fin 512) (f : Fin 128) : EReal :=
  ∑ n : Fin 50000, U (ix2 n k) * x (ix2 n f)

/-- The filtered spectrum: the projection scaled by the filter's entry for that eigenvector. -/
def filtered (U : SU.Idx → EReal) (g : SG.Idx → EReal) (x : SX.Idx → EReal) (k : Fin 512) (f : Fin 128) : EReal :=
  proj U x k f * g (ix1 k)

/-- The filtered spectrum as an array. -/
def filteredArr (U : SU.Idx → EReal) (g : SG.Idx → EReal) (x : SX.Idx → EReal) : SW.Idx → EReal :=
  fun j => filtered U g x (j 0) (j 1)

/-- Back to the nodes: row n of U against the filtered spectrum. -/
def logits (U : SU.Idx → EReal) (w : SW.Idx → EReal) (n : Fin 50000) (f : Fin 128) : EReal :=
  ∑ k : Fin 512, U (ix2 n k) * w (ix2 k f)

/-- The whole convolution: the logits clipped below at zero. -/
def conv (U : SU.Idx → EReal) (g : SG.Idx → EReal) (x : SX.Idx → EReal) : SX.Idx → EReal :=
  fun j => max (logits U (filteredArr U g x) (j 0) (j 1)) (Ideal.ofBits .f32 0x00000000#32)

end Cert.SpectralConv

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.KernelIdeal.Value0Acc.lean ====
/- The accumulator after the last grid point of the first region, over the extended reals. -/
import proofs.«153481_j48928267436259_1_alg».proof.Proof.KernelIdeal.Body0
import proofs.«153481_j48928267436259_1_alg».proof.Proof.KernelIdeal.Pieces
import proofs.«153481_j48928267436259_1_alg».proof.Proof.Spec
import proofs.«153481_j48928267436259_1_alg».proof.Proof.LibDotPlain
import proofs.«153481_j48928267436259_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

open scoped BigOperators

/-- The sum over a tile's 2000 rows r of x0(r, k) · x1(r, f). -/
def rowSum (x0 : Vec Ideal S2000x512 .f32) (x1 : Vec Ideal S2000x128 .f32) (k : Fin 512) (f : Fin 128) : EReal :=
  ∑ r : Fin 2000, x0 (ix2 r k) * x1 (ix2 r f)

/-- One grid point's update at (k, f): the old accumulator entry plus the tile's row sum (the product contracts
    both operands' first axes). -/
theorem pay2_apply (x0 : Vec Ideal S2000x512 .f32) (x1 : Vec Ideal S2000x128 .f32) (xs : Vec Ideal S512x128 .f32)
    (k : Fin 512) (f : Fin 128) :
    k0_pay2 (F := Ideal) x0 x1 xs (ix2 k f) = xs (ix2 k f) + rowSum x0 x1 k f := by
  unfold k0_pay2
  refine (congrFun (shapeCast_self _ _) (ix2 k f)).trans ?_
  refine (addf_apply _ _ _).trans ?_
  exact congrArg (fun z => xs (ix2 k f) + z)
    (Cert.DotPlain.matmul_zero_cols_cols dot_S2000x512_S2000x128_S512x128_0_0_1_1_n_n rfl rfl rfl rfl rfl rfl none x0 x1 k f)

/-- The cleared accumulator is zero everywhere. -/
theorem pay1_apply (k : Fin 512) (f : Fin 128) : k0_pay1 (F := Ideal) (ix2 k f) = 0 := by
  unfold k0_pay1
  refine (congrFun (shapeCast_self _ _) (ix2 k f)).trans ?_
  exact Ideal.ofBits_zero_f32

/-- What the tile of point t adds at (k, f), in the whole arrays: the sum over its 2000 consecutive nodes n of
    U(n, k) · x(n, f); nothing past the 25 tiles. -/
def tileSum (U : Cert.SpectralConv.SU.Idx → EReal) (x : Cert.SpectralConv.SX.Idx → EReal) (k : Fin 512) (f : Fin 128)
    (t : ℕ) : EReal :=
  if ht : t < 25 then
    ∑ r : Fin 2000, U (ix2 (Cert.BlockSum.pos (by norm_num : 25 * 2000 = 50000) ⟨t, ht⟩ r) k)
      * x (ix2 (Cert.BlockSum.pos (by norm_num : 25 * 2000 = 50000) ⟨t, ht⟩ r) f)
  else 0

/-- A tile whose rows are the arrays' rows 2000 · t + r has that row sum. -/
theorem rowSum_eq_tileSum (U : Cert.SpectralConv.SU.Idx → EReal) (x : Cert.SpectralConv.SX.Idx → EReal)
    (x0 : Vec Ideal S2000x512 .f32) (x1 : Vec Ideal S2000x128 .f32) (t : ℕ) (ht : t < 25)
    (h0 : ∀ (r : Fin 2000) (k : Fin 512), x0 (ix2 r k) = U (ix2 (Cert.BlockSum.pos (by norm_num : 25 * 2000 = 50000) ⟨t, ht⟩ r) k))
    (h1 : ∀ (r : Fin 2000) (f : Fin 128), x1 (ix2 r f) = x (ix2 (Cert.BlockSum.pos (by norm_num : 25 * 2000 = 50000) ⟨t, ht⟩ r) f))
    (k : Fin 512) (f : Fin 128) : rowSum x0 x1 k f = tileSum U x k f t := by
  unfold rowSum tileSum
  rw [dif_pos ht]
  exact Finset.sum_congr rfl fun r _ => by rw [h0 r k, h1 r f]

/-- The 25 tiles' sums together are the sum over all 50000 nodes. -/
theorem sum_tileSum (U : Cert.SpectralConv.SU.Idx → EReal) (x : Cert.SpectralConv.SX.Idx → EReal) (k : Fin 512) (f : Fin 128) :
    ∑ t ∈ Finset.range 25, tileSum U x k f t = Cert.SpectralConv.proj U x k f := by
  unfold Cert.SpectralConv.proj
  rw [Cert.BlockSum.sum_range_eq_sum_fin 25 (tileSum U x k f),
    ← Cert.BlockSum.sum_blocks (by norm_num : 25 * 2000 = 50000) (fun n => U (ix2 n k) * x (ix2 n f))]
  refine Finset.sum_congr rfl fun t _ => ?_
  unfold tileSum
  rw [dif_pos t.isLt]

/-- The two tiled windows' index maps over the grid: point t reads block (t, 0) of the eigenvectors and of the
    features. -/
theorem tile_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

section
variable (V : (c : Dev nD) → (b : Ref sig .tc) → Buf (Elt Ideal) ((c : Thread nD τ).loc b))

/-- Row r of the eigenvector tile at point t is node 2000 · t + r. -/
theorem tileU_apply (c : Dev nD) (t : Fin cfg0.N) (ht : t.val < 25) (r : Fin 2000) (k : Fin 512) :
    (tile0 V c 0 t : Vec Ideal S2000x512 .f32) (ix2 r k)
      = V c main_arg0 (ix2 (Cert.BlockSum.pos (by norm_num : 25 * 2000 = 50000) ⟨t.val, ht⟩ r) k) := by
  unfold tile0
  rw [View.read_apply]
  show V c main_arg0 _ = V c main_arg0 _
  congr 1
  funext a
  apply Fin.ext
  obtain ⟨e0, e1, -, -⟩ := tile_index t
  match a with
  | ⟨0, _⟩ => show win0_0.index t (0 : Fin 2) * 2000 + 1 * r.val = 2000 * t.val + r.val; rw [e0]; omega
  | ⟨1, _⟩ => show win0_0.index t (1 : Fin 2) * 512 + 1 * k.val = k.val; rw [e1]; omega

/-- Row r of the feature tile at point t is node 2000 · t + r. -/
theorem tileX_apply (c : Dev nD) (t : Fin cfg0.N) (ht : t.val < 25) (r : Fin 2000) (f : Fin 128) :
    (tile0 V c 1 t : Vec Ideal S2000x128 .f32) (ix2 r f)
      = V c main_arg2 (ix2 (Cert.BlockSum.pos (by norm_num : 25 * 2000 = 50000) ⟨t.val, ht⟩ r) f) := by
  unfold tile0
  rw [View.read_apply]
  show V c main_arg2 _ = V c main_arg2 _
  congr 1
  funext a
  apply Fin.ext
  obtain ⟨-, -, e0, e1⟩ := tile_index t
  match a with
  | ⟨0, _⟩ => show win0_1.index t (0 : Fin 2) * 2000 + 1 * r.val = 2000 * t.val + r.val; rw [e0]; omega
  | ⟨1, _⟩ => show win0_1.index t (1 : Fin 2) * 128 + 1 * f.val = f.val; rw [e1]; omega

/-- The row sum of the two tiles of point t, read in the arrays. -/
theorem tile_rowSum (c : Dev nD) (t : Fin cfg0.N) (k : Fin 512) (f : Fin 128) :
    rowSum (tile0 V c 0 t) (tile0 V c 1 t) k f = tileSum (V c main_arg0) (V c main_arg2) k f t.val := by
  have hN : cfg0.N = 25 := N_0
  have ht : t.val < 25 := by have := t.isLt; omega
  exact rowSum_eq_tileSum (V c main_arg0) (V c main_arg2) (tile0 V c 0 t) (tile0 V c 1 t) t.val ht
    (fun r k => tileU_apply V c t ht r k) (fun r f => tileX_apply V c t ht r f) k f

/-- The first point leaves its tile's row sum alone: the accumulator was cleared first. -/
theorem acc_zero (c : Dev nD) (t : Fin cfg0.N) (h0 : t.val = 0) (k : Fin 512) (f : Fin 128) :
    accAt (F := Ideal) V c t.val t.isLt (ix2 k f) = rowSum (tile0 V c 0 t) (tile0 V c 1 t) k f := by
  have hl : ¬t.val = 24 := by omega
  rw [accAt_first V c t h0 hl, canon_runFirst]
  refine (pay2_apply (tile0 V c 0 t) (tile0 V c 1 t) (k0_pay1 (F := Ideal)) k f).trans ?_
  rw [pay1_apply, zero_add]

/-- Every later point adds its tile's row sum to what the point before left. -/
theorem acc_step (c : Dev nD) (t : Fin cfg0.N) (h0 : ¬t.val = 0) (k : Fin 512) (f : Fin 128) :
    accAt (F := Ideal) V c t.val t.isLt (ix2 k f)
      = accAt (F := Ideal) V c (t.val - 1) (Nat.lt_of_le_of_lt (Nat.sub_le _ _) t.isLt) (ix2 k f)
        + rowSum (tile0 V c 0 t) (tile0 V c 1 t) k f := by
  by_cases hl : t.val = 24
  · rw [accAt_last V c t h0 hl, canon_runLast_acc]
    exact pay2_apply (tile0 V c 0 t) (tile0 V c 1 t) (accAt V c (t.val - 1) (Nat.lt_of_le_of_lt (Nat.sub_le _ _) t.isLt)) k f
  · rw [accAt_mid V c t h0 hl, canon_runMid]
    exact pay2_apply (tile0 V c 0 t) (tile0 V c 1 t) (accAt V c (t.val - 1) (Nat.lt_of_le_of_lt (Nat.sub_le _ _) t.isLt)) k f

/-- After point n the accumulator holds the sum of the tiles of points 0, …, n. -/
theorem accAt_eq_sum (c : Dev nD) (k : Fin 512) (f : Fin 128) : ∀ (n : ℕ) (hn : n < cfg0.N),
    accAt (F := Ideal) V c n hn (ix2 k f) = ∑ t ∈ Finset.range (n + 1), tileSum (V c main_arg0) (V c main_arg2) k f t
  | 0, hn => by
    rw [Finset.sum_range_one]
    exact (acc_zero V c ⟨0, hn⟩ rfl k f).trans (tile_rowSum V c ⟨0, hn⟩ k f)
  | n + 1, hn => by
    rw [Finset.sum_range_succ, ← accAt_eq_sum c k f n (Nat.lt_of_succ_lt hn)]
    refine (acc_step V c ⟨n + 1, hn⟩ (Nat.succ_ne_zero n) k f).trans ?_
    exact congrArg (fun z => accAt (F := Ideal) V c n (Nat.lt_of_succ_lt hn) (ix2 k f) + z) (tile_rowSum V c ⟨n + 1, hn⟩ k f)

end

/-- After the last of the 25 grid points the accumulator holds, at eigenvector k and feature f, the sum over ALL 50000
    nodes of U(n, k) · x(n, f): each point adds its tile of 2000 consecutive nodes, starting from zero. -/
theorem acc_last (V : (c : Dev nD) → (b : Ref sig .tc) → Buf (Elt Ideal) ((c : Thread nD τ).loc b)) (c : Dev nD) (h : 24 < cfg0.N) (k : Fin 512) (f : Fin 128) :
    accAt (F := Ideal) V c 24 h (ix2 k f) = Cert.SpectralConv.proj (V c main_arg0) (V c main_arg2) k f := by
  rw [accAt_eq_sum V c k f 24 h]
  exact sum_tileSum (V c main_arg0) (V c main_arg2) k f

end Cert.KernelIdeal.Hand

end
-- ==== Proof.KernelIdeal.Value0.lean ====
/- The first region's result array, over the extended reals. -/
import proofs.«153481_j48928267436259_1_alg».proof.Proof.KernelIdeal.Value0Acc
import proofs.«153481_j48928267436259_1_alg».proof.Proof.KernelIdeal.Pieces
import proofs.«153481_j48928267436259_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

namespace ScaledSpectrum

/-! ## The scaling by the filter column, entry by entry -/

/-- A column [a, 1] broadcast along the second axis to [a, b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The scaled spectrum's payload at (k, f): the accumulator's entry (k, f) times the filter column's entry k. -/
theorem pay3_apply (a : Vec Ideal S512x128 .f32) (x2 : Vec Ideal S512x1 .f32) (k : Fin 512) (f : Fin 128) :
    k0_pay3 (F := Ideal) a x2 (ix2 k f) = a (ix2 k f) * x2 (ix2 k (0 : Fin 1)) := by
  unfold k0_pay3
  refine (mulf_apply _ _ _).trans ?_
  refine congrArg (fun z => a (ix2 k f) * z) ?_
  refine (broadcastTo_a1_ab_apply _ _ k f).trans ?_
  rw [shapeCast_self]

section
variable (V : (c : Dev nD) → (b : Ref sig .tc) → Buf (Elt F) ((c : Thread nD τ).loc b))

/-! ## The filter column's block, and the output buffer after the last point -/

/-- The filter column's window has one block, the whole column, at every point: its index map is constantly (0, 0). -/
theorem idx_col : ∀ t : Fin cfg0.N, win0_2.index t (0 : Fin 2) = 0 ∧ win0_2.index t (1 : Fin 2) = 0 :=
  (by decide +kernel : ∀ t : Fin grid0.N, _)

/-- So the filter column's block at any point is the column itself: row 512 · 0 + k, column 1 · 0 + 0. -/
theorem tile_col (c : Dev nD) (t : Fin cfg0.N) (k : Fin 512) :
    (tile0 V c 2 t : Vec F S512x1 .f32) (ix2 k (0 : Fin 1)) = (V c main_v0 : S512x1.Idx → Elt F .f32) (ix2 k (0 : Fin 1)) := by
  obtain ⟨e0, e1⟩ := idx_col t
  unfold tile0
  rw [View.read_apply]
  show V c main_v0 _ = V c main_v0 _
  congr 1
  funext a
  apply Fin.ext
  match a with
  | ⟨0, _⟩ => show win0_2.index t (0 : Fin 2) * 512 + 1 * k.val = k.val; rw [e0]; omega
  | ⟨1, _⟩ => show win0_2.index t (1 : Fin 2) * 1 + 1 * 0 = 0; rw [e1]

/-- After the last point the output buffer holds the accumulator that point has just completed, scaled by the filter
    column: the point's store of the product reads back the accumulator's new contents, which are the old contents
    plus the last tile's product. -/
theorem outAt_24 (c : Dev nD) (h : 24 < cfg0.N) :
    outAt V c 24 h = k0_pay3 (accAt V c 24 h) (tile0 V c 2 ⟨24, h⟩) := by
  have e1 := outAt_last V c ⟨24, h⟩ (Nat.succ_ne_zero 23) rfl
  have e2 := accAt_last V c ⟨24, h⟩ (Nat.succ_ne_zero 23) rfl
  rw [canon_runLast_out] at e1
  rw [canon_runLast_acc] at e2
  exact e1.trans (congrArg (fun a => k0_pay3 a (tile0 V c 2 ⟨24, h⟩)) e2.symm)

end

section
variable (V : (c : Dev nD) → (b : Ref sig .tc) → Buf (Elt Ideal) ((c : Thread nD τ).loc b))

/-- The grid's 25 points end at point 24. -/
theorem lt24 : 24 < cfg0.N := by rw [show cfg0.N = 25 from N_0]; decide

/-- The output buffer after the last point, entry by entry: the projection onto eigenvector k of feature column f —
    the completed accumulator — times the filter column's entry k. -/
theorem outAt_24_apply (c : Dev nD) (k : Fin 512) (f : Fin 128) :
    outAt (F := Ideal) V c 24 lt24 (ix2 k f)
      = Cert.SpectralConv.proj (V c main_arg0) (V c main_arg2) k f * V c main_v0 (ix2 k (0 : Fin 1)) := by
  rw [outAt_24 V c lt24]
  refine (pay3_apply _ _ k f).trans ?_
  exact congrArg₂ (fun a b => a * b) (acc_last V c lt24 k f) (tile_col V c ⟨24, lt24⟩ k)

/-- The same as one array. -/
theorem outAt_24_eq (c : Dev nD) :
    outAt (F := Ideal) V c 24 lt24
      = fun j : S512x128.Idx => Cert.SpectralConv.proj (V c main_arg0) (V c main_arg2) (j 0) (j 1) * V c main_v0 (ix2 (j 0) (0 : Fin 1)) := by
  funext j
  obtain ⟨k, f, rfl⟩ : ∃ (k : Fin 512) (f : Fin 128), j = ix2 k f := ⟨j 0, j 1, eq_ix2 j⟩
  exact outAt_24_apply V c k f

/-! ## From the one write-back to the result array -/

/-- The output window has one block, the whole result array, at every point: its index map is constantly (0, 0). -/
theorem idx_out : ∀ t : Fin cfg0.N, win0_3.index t (0 : Fin 2) = 0 ∧ win0_3.index t (1 : Fin 2) = 0 :=
  (by decide +kernel : ∀ t : Fin grid0.N, _)

/-- The one write-back, at point 24 (the only point t with t mod 25 = 24 among 25), writes the output buffer as it
    stands after that point; the block it writes is the whole array read through zero offsets, the array itself. -/
theorem flushed_out (c : Dev nD) (G : Vec Ideal S512x128 .f32) (hG : outAt (F := Ideal) V c 24 lt24 = G)
    (t : Fin cfg0.N) (hf : (cfg0.win 3).flush t = true) :
    (dat0 (F := Ideal) V c).flushed 3 t = ((cfg0.win 3).blk t).view.read (Elt Ideal) G := by
  have hN : cfg0.N = 25 := N_0
  have h24 : t.val = 24 := by have := (flush0_3 t).mp hf; have := t.isLt; omega
  obtain rfl : t = ⟨24, lt24⟩ := Fin.ext h24
  show (cfg0.win 3).cut (grid0.coords ⟨24, lt24⟩) ((dat0 V c).after 3 ⟨24, lt24⟩) = _
  rw [after0_3]
  show (cfg0.win 3).cut (grid0.coords ⟨24, lt24⟩) (outAt V c 24 lt24) = _
  rw [hG]
  obtain ⟨e0, e1⟩ := idx_out ⟨24, lt24⟩
  have hz : (fun a => win0_3.index ⟨24, lt24⟩ a * main_v1.ty.shape.size a) = fun _ => 0 := funext fun a => by
    match a with
    | ⟨0, _⟩ => show win0_3.index ⟨24, lt24⟩ (0 : Fin 2) * 512 = 0; rw [e0]
    | ⟨1, _⟩ => show win0_3.index ⟨24, lt24⟩ (1 : Fin 2) * 128 = 0; rw [e1]
  exact (Memref.read_access_unit_zero (Elt Ideal) main_v1 hz (fun a => by rw [congrFun hz a]; simp) G).symm

/-- Every index (i₀, i₁) of the result array lies in the output window's block at any point: on each axis the block
    starts at 0 and has the array's extent, 0 ≤ i₀ < 512 and 0 ≤ i₁ < 128. -/
theorem mem_out (t : Fin cfg0.N) (i : S512x128.Idx) : i ∈ ((cfg0.win 3).blk t).view.set := by
  obtain ⟨e0, e1⟩ := idx_out t
  show i ∈ ((View.whole main_v1).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    have h := idx2_lt0 i
    rw [e0]; omega
  | ⟨1, _⟩ =>
    show win0_3.index t (1 : Fin 2) * 128 ≤ (i 1).val ∧ (i 1).val < win0_3.index t (1 : Fin 2) * 128 + 128
    have h := idx2_lt1 i
    rw [e1]; omega

end

end ScaledSpectrum

/-- After the first region its result array holds, at eigenvector k and feature f, the projection of the features onto
    eigenvector k scaled by the filter column's entry k — U, the column and x the region's operands as it finds them. -/
theorem region0_value (V : (c : Dev nD) → (b : Ref sig .tc) → Buf (Elt Ideal) ((c : Thread nD τ).loc b)) (c : Dev nD) :
    (dat0 (F := Ideal) V c).arrAt 3 cfg0.N
      = fun j => Cert.SpectralConv.proj (V c main_arg0) (V c main_arg2) (j 0) (j 1) * V c main_v0 (ix2 (j 0) (0 : Fin 1)) := by
  exact (dat0 (F := Ideal) V c).arrAt_eq_of_cover 3 _
    (ScaledSpectrum.flushed_out V c _ (ScaledSpectrum.outAt_24_eq V c))
    (fun i => ⟨⟨24, ScaledSpectrum.lt24⟩, (flush0_3 ⟨24, ScaledSpectrum.lt24⟩).mpr rfl, ScaledSpectrum.mem_out ⟨24, ScaledSpectrum.lt24⟩ i⟩)

end Cert.KernelIdeal.Hand

end
-- ==== Proof.KernelIdeal.Value1.lean ====
/- The second region's result array, over the extended reals. -/
import proofs.«153481_j48928267436259_1_alg».proof.Proof.KernelIdeal.Body1
import proofs.«153481_j48928267436259_1_alg».proof.Proof.KernelIdeal.Pieces
import proofs.«153481_j48928267436259_1_alg».proof.Proof.Spec
import proofs.«153481_j48928267436259_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-- The body's stored value at row r, feature f of its block: the row of the first operand against the column of the
    second, summed over the 512 eigenvectors, clipped below at zero. -/
theorem clipped_pay_apply (x0 : Vec Ideal S2000x512 .f32) (x1 : Vec Ideal S512x128 .f32) (r : Fin 2000) (f : Fin 128) :
    k1_pay1 (F := Ideal) x0 x1 (ix2 r f)
      = max (∑ k : Fin 512, x0 (ix2 r k) * x1 (ix2 k f)) (Ideal.ofBits .f32 0x00000000#32) := by
  unfold k1_pay1
  rw [maximumf_apply, broadcast_apply, shapeCast_self]
  refine congrArg₂ max ?_ rfl
  exact Cert.DotPlain.matmul_zero_rows_cols dot_S2000x512_S512x128_S2000x128_1_0_0_1_n_n rfl rfl rfl rfl rfl rfl none x0 x1 r f

/-- The block indices over the 25 grid points: the eigenvector window and the result window step down the rows with
    the point, the spectrum's window stays on its one block. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- The eigenvector window's block at point t is rows 2000·t … 2000·t + 1999 of the eigenvector array. -/
theorem tile1_0_apply (c : Dev nD) (t : Fin cfg1.N) (r : Fin 2000) (k : Fin 512) (n : Fin 50000)
    (hn : n.val = 2000 * t.val + r.val) :
    (tile1 V c 0 t : Vec Ideal S2000x512 .f32) (ix2 r k) = (V c main_arg0 : S50000x512.Idx → EReal) (ix2 n k) := by
  obtain ⟨e0, e1, -, -, -, -⟩ := index1 t
  unfold tile1
  rw [View.read_apply]
  show V c main_arg0 _ = V c main_arg0 _
  congr 1
  funext a
  apply Fin.ext
  match a with
  | ⟨0, _⟩ => show win1_0.index t (0 : Fin 2) * 2000 + 1 * r.val = n.val; rw [e0, hn]; omega
  | ⟨1, _⟩ => show win1_0.index t (1 : Fin 2) * 512 + 1 * k.val = k.val; rw [e1]; omega

/-- The spectrum's window holds the whole filtered spectrum at every point. -/
theorem tile1_1_apply (c : Dev nD) (t : Fin cfg1.N) (k : Fin 512) (f : Fin 128) :
    (tile1 V c 1 t : Vec Ideal S512x128 .f32) (ix2 k f) = (V c main_v1 : S512x128.Idx → EReal) (ix2 k f) := by
  obtain ⟨-, -, e2, e3, -, -⟩ := index1 t
  unfold tile1
  rw [View.read_apply]
  show V c main_v1 _ = V c main_v1 _
  congr 1
  funext a
  apply Fin.ext
  match a with
  | ⟨0, _⟩ => show win1_1.index t (0 : Fin 2) * 512 + 1 * k.val = k.val; rw [e2]; omega
  | ⟨1, _⟩ => show win1_1.index t (1 : Fin 2) * 128 + 1 * f.val = f.val; rw [e3]; omega

/-- The result the statement names, as contents of the region's result array. -/
abbrev clipped1 (c : Dev nD) : S50000x128.Idx → EReal :=
  fun j => max (Cert.SpectralConv.logits (V c main_arg0) (V c main_v1) (j 0) (j 1)) (Ideal.ofBits .f32 0x00000000#32)

/-- What point t writes back is block t of that result: row r of the block is row 2000·t + r of the array. -/
theorem flushed1_eq (c : Dev nD) (t : Fin cfg1.N) :
    (dat1 (F := Ideal) V c).flushed 2 t = ((cfg1.win 2).blk t).view.read (Elt Ideal) (clipped1 V c) := by
  show (cfg1.win 2).cut (grid1.coords t) ((dat1 V c).after 2 t) = _
  rw [after1_2]
  unfold out1 pieces1
  rw [canon_runLogits]
  obtain ⟨-, -, -, -, e4, e5⟩ := index1 t
  funext j
  have h0 : (j 0).val < 2000 := (j 0).isLt
  have h1 : (j 1).val < 128 := (j 1).isLt
  have hx : (cfg1.win 2).xinj (grid1.coords t) j = ix2 (⟨(j 0).val, h0⟩ : Fin 2000) (⟨(j 1).val, h1⟩ : Fin 128) := by
    funext a
    match a with
    | ⟨0, _⟩ => rfl
    | ⟨1, _⟩ => rfl
  show k1_pay1 (F := Ideal) (tile1 V c 0 t) (tile1 V c 1 t) ((cfg1.win 2).xinj (grid1.coords t) j) = _
  rw [hx, clipped_pay_apply, View.read_apply]
  show _ = max (Cert.SpectralConv.logits (V c main_arg0) (V c main_v1) ((((cfg1.win 2).blk t).view.emb j) 0) ((((cfg1.win 2).blk t).view.emb j) 1)) (Ideal.ofBits .f32 0x00000000#32)
  have hr : ((((cfg1.win 2).blk t).view.emb j) 0).val = 2000 * t.val + (j 0).val := by
    show win1_2.index t (0 : Fin 2) * 2000 + 1 * (j 0).val = _
    rw [e4]; omega
  have hf : ((((cfg1.win 2).blk t).view.emb j) 1) = (⟨(j 1).val, h1⟩ : Fin 128) := by
    apply Fin.ext
    show win1_2.index t (1 : Fin 2) * 128 + 1 * (j 1).val = (j 1).val
    rw [e5]; omega
  refine congrArg₂ max ?_ rfl
  unfold Cert.SpectralConv.logits
  rw [hf]
  refine Finset.sum_congr rfl fun k _ => ?_
  rw [tile1_0_apply V c t ⟨(j 0).val, h0⟩ k _ hr, tile1_1_apply V c t k ⟨(j 1).val, h1⟩]

/-- Row n of the result array lies in the block of point n / 2000. -/
theorem cover1_2 (c : Dev nD) (i : ((cfg1.win 2).arr.view.loc ((c : Thread nD τ))).2.ty.Idx) :
    ∃ t : Fin cfg1.N, (cfg1.win 2).flush t = true ∧ i ∈ ((cfg1.win 2).blk t).view.set := by
  have h0 : (i 0).val < 50000 := (i 0).isLt
  have h1 : (i 1).val < 128 := (i 1).isLt
  have hN : cfg1.N = 25 := N_1
  let t : Fin cfg1.N := ⟨(i 0).val / 2000, by rw [hN]; omega⟩
  obtain ⟨-, -, -, -, e4, e5⟩ := index1 t
  have hv : t.val = (i 0).val / 2000 := rfl
  refine ⟨t, flush1_2 t, ?_⟩
  show i ∈ ((View.whole main_v2).slice (win1_2.rect t)).set
  rw [View.set_slice_whole, Rect.mem_set_unit]
  intro a
  match a with
  | ⟨0, _⟩ =>
    show win1_2.index t (0 : Fin 2) * 2000 ≤ (i 0).val ∧ (i 0).val < win1_2.index t (0 : Fin 2) * 2000 + 2000
    rw [e4, hv]; omega
  | ⟨1, _⟩ =>
    show win1_2.index t (1 : Fin 2) * 128 ≤ (i 1).val ∧ (i 1).val < win1_2.index t (1 : Fin 2) * 128 + 128
    rw [e5]; omega

end

/-- After the second region its result array holds, at node n and feature f, the sum over the 512 eigenvectors of
    U(n, k) · w(k, f), clipped below at zero — U the region's first operand, w its second, as the region finds them. -/
theorem region1_value (V : (c : Dev nD) → (b : Ref sig .tc) → Buf (Elt Ideal) ((c : Thread nD τ).loc b)) (c : Dev nD) :
    (dat1 (F := Ideal) V c).arrAt 2 cfg1.N
      = fun j => max (Cert.SpectralConv.logits (V c main_arg0) (V c main_v1) (j 0) (j 1)) (Ideal.ofBits .f32 0x00000000#32) :=
  (dat1 (F := Ideal) V c).arrAt_eq_of_cover 2 (clipped1 V c) (fun t _ => flushed1_eq V c t) (cover1_2 c)

end Cert.KernelIdeal.Hand

end
-- ==== Proof.KernelIdeal.Value.lean ====
/- The idealized kernel's result as one function of its three arguments: the second region's array over the first
   region's, the boundary contents read back to the launch memory — the eigenvectors and the features unchanged, the
   filter column the filter reshaped — and the whole is the spectral convolution of the specification. -/
import proofs.«153481_j48928267436259_1_alg».proof.Proof.KernelIdeal.Whole
import proofs.«153481_j48928267436259_1_alg».proof.Proof.KernelIdeal.Value0
import proofs.«153481_j48928267436259_1_alg».proof.Proof.KernelIdeal.Value1
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Idealize.ShloMosaic.StableHlo

variable (m : (ℓ : Loc nD τ sig) → Buf (Elt Ideal) ℓ)

/-- A vector reshaped into a column, read at row k. -/
theorem column_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The first region finds the eigenvectors and the features as launched, -/
theorem in0_arg0 (c : Dev nD) : in0 m c main_arg0 = m ((c : Thread nD τ).loc main_arg0) :=
  (Gen.V1_of m c main_arg0 (by decide)).trans rfl
theorem in0_arg2 (c : Dev nD) : in0 m c main_arg2 = m ((c : Thread nD τ).loc main_arg2) :=
  (Gen.V1_of m c main_arg2 (by decide)).trans rfl

/-- and the filter as a column. -/
theorem in0_col (c : Dev nD) (k : Fin 512) :
    in0 m c main_v0 (ix2 k (0 : Fin 1)) = m ((c : Thread nD τ).loc main_arg1) (ix1 k) := by
  have e : (in0 m c main_v0 : S512x1.Idx → EReal) = shapeCast S512x1 (m ((c : Thread nD τ).loc main_arg1)) shapeCasts_S512_S512x1 := by
    show StableHlo.after hostOps0 (fun b => m (c, b)) (Proc.devRef .tc main_v0) = _
    after_results
    rfl
  rw [e]
  exact column_apply _ _ k 0

/-- The second region finds the eigenvectors as launched, and the first region's result. -/
theorem in1_arg0 (c : Dev nD) : in1 m c main_arg0 = m ((c : Thread nD τ).loc main_arg0) :=
  ((W2_arr m c 0).trans (((dat0 (in0 m) c).arrAt_in 0 rfl _).trans (A_eq0 (in0 m) c 0))).trans (in0_arg0 m c)
theorem in1_v1 (c : Dev nD) : in1 m c main_v1 = (dat0 (in0 m) c).arrAt 3 cfg0.N := W2_arr m c 3

/-- The three launch arrays of core `c`, at their literal types. -/
abbrev eig (c : Dev nD) : S50000x512.Idx → EReal := m ((c : Thread nD τ).loc main_arg0)
abbrev flt (c : Dev nD) : S512.Idx → EReal := m ((c : Thread nD τ).loc main_arg1)
abbrev feat (c : Dev nD) : S50000x128.Idx → EReal := m ((c : Thread nD τ).loc main_arg2)

/-- At one node p and feature q: the clipped product of row p of the eigenvectors with the first region's result, the
    boundary contents read back to the launch arrays, is the specification's convolution there. -/
theorem glue_at (c : Dev nD) (p : Fin 50000) (q : Fin 128) :
    max (Cert.SpectralConv.logits (m ((c : Thread nD τ).loc main_arg0))
        (fun j' : S512x128.Idx => Cert.SpectralConv.proj (in0 m c main_arg0) (in0 m c main_arg2) (j' 0) (j' 1) * in0 m c main_v0 (ix2 (j' 0) (0 : Fin 1))) p q)
      (Ideal.ofBits .f32 0x00000000#32)
      = Cert.SpectralConv.conv (m ((c : Thread nD τ).loc main_arg0)) (m ((c : Thread nD τ).loc main_arg1)) (m ((c : Thread nD τ).loc main_arg2)) (ix2 p q) := by
  show max (∑ k : Fin 512, eig m c (ix2 p k)
        * (Cert.SpectralConv.proj (in0 m c main_arg0) (in0 m c main_arg2) k q * (in0 m c main_v0 : S512x1.Idx → EReal) (ix2 k (0 : Fin 1)))) _
    = max (∑ k : Fin 512, eig m c (ix2 p k)
        * (Cert.SpectralConv.proj (eig m c) (feat m c) k q * flt m c (ix1 k))) _
  rw [in0_arg0, in0_arg2]
  refine congrArg (fun z => max z (Ideal.ofBits .f32 0x00000000#32)) (Finset.sum_congr rfl fun k _ => ?_)
  rw [in0_col]

/-- THE KERNEL'S VALUE: what the second region's write-backs leave in the result array is the specification's
    convolution of the three launch arrays. -/
theorem kernel_value (c : Dev nD) :
    (dat1 (F := Ideal) (in1 m) c).arrAt 2 cfg1.N
      = Cert.SpectralConv.conv (m ((c : Thread nD τ).loc main_arg0)) (m ((c : Thread nD τ).loc main_arg1)) (m ((c : Thread nD τ).loc main_arg2)) := by
  rw [region1_value, in1_arg0, in1_v1, region0_value]
  refine funext fun (j : S50000x128.Idx) => ?_
  obtain ⟨p, q, rfl⟩ : ∃ (p : Fin 50000) (q : Fin 128), j = ix2 p q := ⟨j 0, j 1, eq_ix2 j⟩
  exact glue_at m c p q

end Cert.KernelIdeal.Hand

end
-- ==== Proof.RefIsSpec.lean ====
/- The reference program's result, read over the extended reals, is the spectral convolution.

   The reference computes, in order: the transpose of U; the projection  P = Uᵀ · x  (a contraction over the
   50000 nodes); the filter g spread along the feature axis; the product  g(k) · P(k, f);  the contraction of
   U against that product over the 512 eigenvectors; and the maximum with zero.

   Read at an index (n, f), the transpose swaps the two coordinates, so the first contraction's summand is
   U(m, k) · x(m, f), which is the specification's projection term for term. The spread filter reads g(k)
   whatever f is. The reference forms g(k) · P(k, f) where the specification has P(k, f) · g(k): products of
   extended reals commute. The outer contraction's summand is then U(n, k) times the filtered spectrum at
   (k, f), again term for term, and both sides clip below at the same zero. No sum is regrouped and no factor
   crosses a sum, so nothing asks the entries to be finite. -/
import proofs.«153481_j48928267436259_1_alg».proof.Proof.Spec
import proofs.«153481_j48928267436259_1_alg».proof.Proof.Gen.ReferenceIdeal.Read

noncomputable section

namespace Cert.ReferenceIdeal.RefValue

open Cert.ReferenceIdeal Cert.ReferenceIdeal.Read Idealize.ShloMosaic Idealize.ShloMosaic.ValueIdx
open scoped BigOperators

/-! ## Where each stage reads its operands, in coordinates -/

/-- The outer contraction at result (n, f), term k, reads U at (n, k) … -/
theorem lidx5_ix (p : Fin 50000) (q : Fin 128) (k : Fin 512) :
    lidx_main_v5 (ix2 p q) k = ix2 p k :=
  funext fun a => Fin.ext (by match a with | ⟨0, _⟩ => rfl | ⟨1, _⟩ => rfl)

/-- … and the filtered spectrum at (k, f). -/
theorem ridx5_ix (p : Fin 50000) (q : Fin 128) (k : Fin 512) :
    ridx_main_v5 (ix2 p q) k = ix2 k q :=
  funext fun a => Fin.ext (by match a with | ⟨0, _⟩ => rfl | ⟨1, _⟩ => rfl)

/-- The filter spread over (k, f) reads g at k: the two broadcasts composed forget f. -/
theorem gidx_ix (k : Fin 512) (q : Fin 128) :
    idx_main_v2 (idx_main_v3 (ix2 k q)) = ix1 k :=
  funext fun a => Fin.ext (by match a with | ⟨0, _⟩ => rfl)

/-- The inner contraction at (k, f), term m, reads the transposed U at (k, m), which is U at (m, k) … -/
theorem lidx1_ix (k : Fin 512) (q : Fin 128) (n : Fin 50000) :
    idx_main_v0 (lidx_main_v1 (ix2 k q) n) = ix2 n k :=
  funext fun a => Fin.ext (by match a with | ⟨0, _⟩ => rfl | ⟨1, _⟩ => rfl)

/-- … and x at (m, f). -/
theorem ridx1_ix (k : Fin 512) (q : Fin 128) (n : Fin 50000) :
    ridx_main_v1 (ix2 k q) n = ix2 n q :=
  funext fun a => Fin.ext (by match a with | ⟨0, _⟩ => rfl | ⟨1, _⟩ => rfl)

/-! ## The stages -/

/-- The inner contraction is the projection of feature column f onto eigenvector k. -/
theorem proj_stage (x0 : (⟨S50000x512, .f32⟩ : BufTy).Contents (Elt Ideal))
    (x2 : (⟨S50000x128, .f32⟩ : BufTy).Contents (Elt Ideal)) (k : Fin 512) (q : Fin 128) :
    val_main_v1 (F := Ideal) x0 x2 (ix2 k q) = Cert.SpectralConv.proj x0 x2 k q := by
  rw [val_main_v1_apply]
  unfold Cert.SpectralConv.proj
  refine Finset.sum_congr rfl fun n _ => ?_
  rw [val_main_v0_apply, lidx1_ix, ridx1_ix]

/-- The product stage is the filtered spectrum: g(k) · P(k, f) = P(k, f) · g(k). -/
theorem filtered_stage (x0 : (⟨S50000x512, .f32⟩ : BufTy).Contents (Elt Ideal))
    (x1 : (⟨S512, .f32⟩ : BufTy).Contents (Elt Ideal))
    (x2 : (⟨S50000x128, .f32⟩ : BufTy).Contents (Elt Ideal)) (k : Fin 512) (q : Fin 128) :
    val_main_v4 (F := Ideal) x0 x1 x2 (ix2 k q) = Cert.SpectralConv.filteredArr x0 x1 x2 (ix2 k q) := by
  rw [val_main_v4_apply, val_main_v3_apply, val_main_v2_apply, gidx_ix, proj_stage]
  show x1 (ix1 k) * Cert.SpectralConv.proj x0 x2 k q = Cert.SpectralConv.proj x0 x2 k q * x1 (ix1 k)
  exact mul_comm _ _

/-! ## The whole program -/

/-- The reference's result is the convolution: the outer contraction against the filtered spectrum,
    clipped below at zero. -/
theorem ref_eq_conv (x0 : (⟨S50000x512, .f32⟩ : BufTy).Contents (Elt Ideal))
    (x1 : (⟨S512, .f32⟩ : BufTy).Contents (Elt Ideal))
    (x2 : (⟨S50000x128, .f32⟩ : BufTy).Contents (Elt Ideal)) :
    Cert.ReferenceIdeal.Read.val_main_v6 (F := Ideal) x0 x1 x2 = Cert.SpectralConv.conv x0 x1 x2 := by
  funext j
  obtain ⟨p, q, rfl⟩ : ∃ (p : Fin 50000) (q : Fin 128), j = ix2 p q := ⟨j 0, j 1, eq_ix2 j⟩
  rw [val_main_v6_apply, val_main_v5_apply, val_main_call0_v0_apply, val_main_call0_cst_apply]
  show max (∑ k : Fin 512, x0 (lidx_main_v5 (ix2 p q) k)
        * val_main_v4 (F := Ideal) x0 x1 x2 (ridx_main_v5 (ix2 p q) k)) (Ideal.ofBits .f32 0x00000000#32)
      = max (∑ k : Fin 512, x0 (ix2 p k) * Cert.SpectralConv.filteredArr x0 x1 x2 (ix2 k q))
          (Ideal.ofBits .f32 0x00000000#32)
  congr 1
  refine Finset.sum_congr rfl fun k _ => ?_
  rw [lidx5_ix, ridx5_ix, filtered_stage]

end Cert.ReferenceIdeal.RefValue

end
-- ==== Proof.lean ====
/- The spectral graph convolution  relu(U · diag(g) · Uᵀ · x)  as two pipelined kernels — the first accumulates the
   projection Uᵀ·x over 25 tiles of 2000 nodes in a scratch buffer and, at the last tile, scales row k by g(k); the
   second multiplies each tile of U by that filtered spectrum and clips at zero — against the plain reference
   U · (g ⊙ (Uᵀ · x)) clipped at zero.

   Over the extended reals both are  max(Σ_k U(n,k) · ((Σ_m U(m,k) · x(m,f)) · g(k)), 0):  the kernel's sum over tiles
   of sums over a tile's rows is the one sum over all rows (sums in a commutative monoid regroup freely), a product
   into a zero accumulator is the plain sum, and the reference's g(k) · P(k,f) is the kernel's P(k,f) · g(k). No step
   needs the inputs finite. Each program runs to the end leaving its arguments unchanged: the kernels' runs carry the
   accumulator's contents from one grid point to the next in the first region's invariant; the reference is a
   straight line of host operations. The idealized kernel is the word-level kernel's own text read at exact
   arithmetic (no rewrite was applied), so that claim is trivial. -/
import proofs.«153481_j48928267436259_1_alg».proof.Defs
import proofs.«153481_j48928267436259_1_alg».proof.Proof.Gen.Kernel
import proofs.«153481_j48928267436259_1_alg».proof.Proof.Gen.KernelIdeal
import proofs.«153481_j48928267436259_1_alg».proof.Proof.Gen.ReferenceIdeal
import proofs.«153481_j48928267436259_1_alg».proof.Proof.Gen.Pre_finite_inputs
import proofs.«153481_j48928267436259_1_alg».proof.Proof.Gen.ReferenceIdeal.Run
import proofs.«153481_j48928267436259_1_alg».proof.Proof.Kernel.Whole
import proofs.«153481_j48928267436259_1_alg».proof.Proof.KernelIdeal.Value
import proofs.«153481_j48928267436259_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's convolution of the (agreeing) arguments. -/
theorem algebraic : Cert.algebraic_KernelIdeal_ReferenceIdeal := by
  intro m ρ m' ρ' _ hagree
  refine ⟨fun c => Cert.SpectralConv.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.kernel_value m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.ReferenceIdeal.RefValue.ref_eq_conv,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
